-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x1, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x1, .f32⟩
  | 15 => ⟨S1700000x64, .f32⟩
  | 16 => ⟨S1700000x64, .f32⟩
  | 17 => ⟨S_, .f32⟩
  | 18 => ⟨S100000x64, .f32⟩
  | 19 => ⟨S1700000x1, .i32⟩
  | 20 => ⟨S100000x64, .f32⟩
  | 21 => ⟨S1x64, .f32⟩
  | 22 => ⟨S100000x64, .f32⟩
  | 23 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LayerSpec.lean ====
/-
  The three node-wise maps of a graph-convolution layer, as functions on arrays of extended reals, index by index.

  * `matProd x w`: the dense map, entry (r, c) the sum over k of x(r, k) · w(k, c);
  * `biasRelu a b`: entry (r, c) is max(a(r, c) + b(0, c), 0), the bias being a one-row array;
  * `biasAdd a b`: entry (r, c) is a(r, c) + b(0, c).

  The zero that the rectifier compares with is kept as the float word it is written with: both programs write the same
  word, so it is never evaluated.
-/
import Idealize.ShloMosaic.PureOps.Ideal
import Idealize.ShloMosaic.Lib.ValueIdx

noncomputable section

namespace GcnLayer

open Idealize.ShloMosaic Idealize.ShloMosaic.ValueIdx

variable {R K C : Nat}

/-- The dense map: entry (r, c) is the sum over k of x(r, k) · w(k, c). -/
def matProd (x : FVec Ideal ⟨2, ![R, K]⟩ .f32) (w : FVec Ideal ⟨2, ![K, C]⟩ .f32) : FVec Ideal ⟨2, ![R, C]⟩ .f32 :=
  fun i => ∑ k : Fin K, x (ix2 (i 0) k) * w (ix2 k (i 1))

/-- Bias then rectifier: entry (r, c) is max(a(r, c) + b(0, c), 0). -/
def biasRelu (a : FVec Ideal ⟨2, ![R, C]⟩ .f32) (b : FVec Ideal ⟨2, ![1, C]⟩ .f32) : FVec Ideal ⟨2, ![R, C]⟩ .f32 :=
  fun i => max (a i + b (ix2 (0 : Fin 1) (i 1))) (Ideal.ofBits .f32 0x00000000#32)

/-- Bias alone: entry (r, c) is a(r, c) + b(0, c). -/
def biasAdd (a : FVec Ideal ⟨2, ![R, C]⟩ .f32) (b : FVec Ideal ⟨2, ![1, C]⟩ .f32) : FVec Ideal ⟨2, ![R, C]⟩ .f32 :=
  fun i => a i + b (ix2 (0 : Fin 1) (i 1))

theorem matProd_apply (x : FVec Ideal ⟨2, ![R, K]⟩ .f32) (w : FVec Ideal ⟨2, ![K, C]⟩ .f32) (r : Fin R) (c : Fin C) :
    matProd x w (ix2 r c) = ∑ k : Fin K, x (ix2 r k) * w (ix2 k c) := rfl

theorem biasRelu_apply (a : FVec Ideal ⟨2, ![R, C]⟩ .f32) (b : FVec Ideal ⟨2, ![1, C]⟩ .f32) (r : Fin R) (c : Fin C) :
    biasRelu a b (ix2 r c) = max (a (ix2 r c) + b (ix2 (0 : Fin 1) c)) (Ideal.ofBits .f32 0x00000000#32) := rfl

theorem biasAdd_apply (a : FVec Ideal ⟨2, ![R, C]⟩ .f32) (b : FVec Ideal ⟨2, ![1, C]⟩ .f32) (r : Fin R) (c : Fin C) :
    biasAdd a b (ix2 r c) = a (ix2 r c) + b (ix2 (0 : Fin 1) c) := rfl

end GcnLayer

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Region0.lean ====
/-
  The first dense layer's kernel region: what its output array holds when the region is left.

  The region walks ten row blocks of 10000 rows.  At block t the body multiplies rows 10000·t … 10000·t + 9999 of the
  left array (its narrowing to the short float format is the identity on extended reals) by the whole right array,
  into a zero accumulator, and writes the product back as rows 10000·t … of the output.  So entry (r, c) of the
  output is the sum over k of x(r, k) · w(k, c), whatever the arrays hold when the region is entered: the ten
  blocks tile the output, block r / 10000 covering row r.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_0 : (![0, 0] : Fin 2 → Nat) = fun _ => 0 :=
  funext fun a => match a with | ⟨0, _⟩ => rfl | ⟨1, _⟩ => rfl

/-- The body's product at entry (p, q) of a block: the sum over k of the left block's (p, k) times the right
    block's (k, q). -/
theorem prod0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  refine (Ideal.matmul_constant_zero_apply dot_S10000x128_S128x128_S10000x128_1_0_0_1_n_n none _ _ (ix2 p q)).trans ?_
  exact PlainDot.sum_eq (M := EReal) dot_S10000x128_S128x128_S10000x128_1_0_0_1_n_n rfl rfl rfl rfl rfl rfl _ _ p q

/-- The index maps over the grid: the left and the output windows move together down the rows, block t at row
    block t; nothing moves along the columns, and the right window stays put. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What block t writes back is block t of the dense map of the arrays as the region finds them. -/
theorem flushed0 (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 (F := Ideal) V c).after 2 t) = _
  rw [after0_2]
  unfold out0_2
  rw [View.canon_unit_zero origin2_0]
  simp only [View.ld_unit_zero (S := S10000x128) origin2_0, View.ld_unit_zero (S := S128x128) origin2_0]
  obtain ⟨e0, e1, e2, e3, e4, e5⟩ := blocks0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = matProd (V c main_arg0) (V c main_arg2) (((cfg0.win 2).blk t).view.emb (ix2 p q))
  refine (prod0_apply _ _ p q).trans ?_
  have hout : ((cfg0.win 2).blk t).view.emb (ix2 p q) = ix2 (⟨t.val * 10000 + p.val, by have := t.isLt; have := p.isLt; have hN : cfg0.N = 10 := N_0; omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hout, matProd_apply]
  refine Finset.sum_congr rfl fun k _ => ?_
  have hl : iblk0 V c 0 t (ix2 p k) = V c main_arg0 (ix2 (⟨t.val * 10000 + p.val, by have := t.isLt; have := p.isLt; have hN : cfg0.N = 10 := N_0; omega⟩ : Fin 100000) k) := by
    show V c main_arg0 (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hr : iblk0 V c 1 t (ix2 k q) = V c main_arg2 (ix2 k q) := by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hl, hr]

/-- An index of the output array lies in block t iff each coordinate lies in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten blocks tile the output: row r lies in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by omega⟩
  obtain ⟨-, -, -, -, e4, e5⟩ := blocks0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY when the region is left: the dense map of the two input arrays as the region found them. -/
theorem dense0 (c : Dev nD) :
    (dat0 (F := Ideal) V c).arrAt 2 cfg0.N = matProd (V c main_arg0) (V c main_arg2) :=
  (dat0 (F := Ideal) V c).arrAt_eq_of_cover 2 (matProd (V c main_arg0) (V c main_arg2)) (fun t _ => flushed0 V c t) cover0

end Cert.KernelIdeal.Layers

end
-- ==== Proof.Region1.lean ====
/-
  The first layer's bias-and-rectifier region: what its output array holds when the region is left.

  The region walks ten row blocks of 10000 rows.  At block t the body adds the one-row bias array, repeated down the
  rows, to rows 10000·t … 10000·t + 9999 of the aggregated array, takes the maximum with zero entry by entry, and
  writes the result back as the same rows of the output.  So entry (r, c) of the output is
  max(a(r, c) + b(0, c), 0), whatever the arrays hold when the region is entered: the ten blocks tile the output.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_1 : (![0, 0] : Fin 2 → Nat) = fun _ => 0 :=
  funext fun a => match a with | ⟨0, _⟩ => rfl | ⟨1, _⟩ => rfl

/-- The body's value at entry (p, q) of a block: the block's entry plus the bias row's entry q, against zero. -/
theorem act1_apply (x0 : Vec Ideal S10000x128 .f32) (x1 : Vec Ideal S1x128 .f32) (p : Fin 10000) (q : Fin 128) :
    k1_pay1 (F := Ideal) x0 x1 (ix2 p q)
      = max (x0 (ix2 p q) + x1 (ix2 (0 : Fin 1) q)) (Ideal.ofBits .f32 0x00000000#32) := by
  unfold k1_pay1
  simp only [shapeCast_self]
  show max (x0 (ix2 p q) + broadcastTo S10000x128 x1 broadcasts_S1x128_S10000x128 (ix2 p q)) _ = _
  rw [broadcastTo_apply x1 broadcasts_S1x128_S10000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-- The index maps over the grid: the aggregated and the output windows move together down the rows, block t at
    row block t; nothing moves along the columns, and the bias window stays put. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What block t writes back is block t of the bias-and-rectifier map of the arrays as the region finds them. -/
theorem flushed1 (c : Dev nD) (t : Fin cfg1.N) :
    (dat1 (F := Ideal) V c).flushed 2 t
      = ((cfg1.win 2).blk t).view.read (Elt Ideal) (biasRelu (V c main_v43) (V c main_v44)) := by
  show (cfg1.win 2).cut (grid1.coords t) ((dat1 (F := Ideal) V c).after 2 t) = _
  rw [after1_2]
  unfold out1_2
  rw [View.canon_unit_zero origin2_1]
  simp only [View.ld_unit_zero (S := S10000x128) origin2_1, View.ld_unit_zero (S := S1x128) origin2_1]
  obtain ⟨e0, e1, e2, e3, e4, e5⟩ := blocks1 t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q)
    = biasRelu (V c main_v43) (V c main_v44) (((cfg1.win 2).blk t).view.emb (ix2 p q))
  refine (act1_apply _ _ p q).trans ?_
  have hout : ((cfg1.win 2).blk t).view.emb (ix2 p q) = ix2 (⟨t.val * 10000 + p.val, by have := t.isLt; have := p.isLt; have hN : cfg1.N = 10 := N_1; omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  rw [hout, biasRelu_apply]
  have hl : iblk1 V c 0 t (ix2 p q) = V c main_v43 (ix2 (⟨t.val * 10000 + p.val, by have := t.isLt; have := p.isLt; have hN : cfg1.N = 10 := N_1; omega⟩ : Fin 100000) q) := by
    show V c main_v43 (((cfg1.win 0).blk t).view.emb (ix2 p q)) = _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have hr : iblk1 V c 1 t (ix2 (0 : Fin 1) q) = V c main_v44 (ix2 (0 : Fin 1) q) := by
    show V c main_v44 (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [hl, hr]

/-- An index of the output array lies in block t iff each coordinate lies in the block's range on its axis. -/
theorem mem_block1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten blocks tile the output: row r lies in block r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by omega⟩
  obtain ⟨-, -, -, -, e4, e5⟩ := blocks1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE OUTPUT ARRAY when the region is left: bias and rectifier of the two input arrays as the region found them. -/
theorem act1 (c : Dev nD) :
    (dat1 (F := Ideal) V c).arrAt 2 cfg1.N = biasRelu (V c main_v43) (V c main_v44) :=
  (dat1 (F := Ideal) V c).arrAt_eq_of_cover 2 (biasRelu (V c main_v43) (V c main_v44)) (fun t _ => flushed1 V c t) cover1

end Cert.KernelIdeal.Layers

end
-- ==== Proof.Region2.lean ====
/-
  The second dense layer's kernel region: what its output array holds when the region is left.

  As in the first dense layer the region walks ten row blocks of 10000 rows; at block t the body multiplies rows
  10000·t … 10000·t + 9999 of the left array (passed through a reshaping to its own shape and a narrowing of the float
  format, both the identity here) by the whole right array, into a zero accumulator, and writes the product back as
  the same rows of the output.  Entry (r, c) of the output is the sum over k of x(r, k) · w(k, c), and the ten blocks
  tile the output.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_2 : (![0, 0] : Fin 2 → Nat) = fun _ => 0 :=
  funext fun a => match a with | ⟨0, _⟩ => rfl | ⟨1, _⟩ => rfl

/-- The body's product at entry (p, q) of a block: the sum over k of the left block's (p, k) times the right
    block's (k, q); the left block's reshaping to its own shape changes nothing. -/
theorem prod2_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [shapeCast_self]
  refine (Ideal.matmul_constant_zero_apply dot_S10000x128_S128x128_S10000x128_1_0_0_1_n_n none _ _ (ix2 p q)).trans ?_
  exact PlainDot.sum_eq (M := EReal) dot_S10000x128_S128x128_S10000x128_1_0_0_1_n_n rfl rfl rfl rfl rfl rfl _ _ p q

/-- The index maps over the grid: the left and the output windows move together down the rows, block t at row
    block t; nothing moves along the columns, and the right window stays put. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What block t writes back is block t of the dense map of the arrays as the region finds them. -/
theorem flushed2 (c : Dev nD) (t : Fin cfg2.N) :
    (dat2 (F := Ideal) V c).flushed 2 t
      = ((cfg2.win 2).blk t).view.read (Elt Ideal) (matProd (V c main_v45) (V c main_arg4)) := by
  show (cfg2.win 2).cut (grid2.coords t) ((dat2 (F := Ideal) V c).after 2 t) = _
  rw [after2_2]
  unfold out2_2
  rw [View.canon_unit_zero origin2_2]
  simp only [View.ld_unit_zero (S := S10000x128) origin2_2, View.ld_unit_zero (S := S128x128) origin2_2]
  obtain ⟨e0, e1, e2, e3, e4, e5⟩ := blocks2 t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (ix2 p q)
    = matProd (V c main_v45) (V c main_arg4) (((cfg2.win 2).blk t).view.emb (ix2 p q))
  refine (prod2_apply _ _ p q).trans ?_
  have hout : ((cfg2.win 2).blk t).view.emb (ix2 p q) = ix2 (⟨t.val * 10000 + p.val, by have := t.isLt; have := p.isLt; have hN : cfg2.N = 10 := N_2; omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  rw [hout, matProd_apply]
  refine Finset.sum_congr rfl fun k _ => ?_
  have hl : iblk2 V c 0 t (ix2 p k) = V c main_v45 (ix2 (⟨t.val * 10000 + p.val, by have := t.isLt; have := p.isLt; have hN : cfg2.N = 10 := N_2; omega⟩ : Fin 100000) k) := by
    show V c main_v45 (((cfg2.win 0).blk t).view.emb (ix2 p k)) = _
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have hr : iblk2 V c 1 t (ix2 k q) = V c main_arg4 (ix2 k q) := by
    show V c main_arg4 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [hl, hr]

/-- An index of the output array lies in block t iff each coordinate lies in the block's range on its axis. -/
theorem mem_block2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- The ten blocks tile the output: row r lies in block r / 10000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by omega⟩
  obtain ⟨-, -, -, -, e4, e5⟩ := blocks2 t
  have ht : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE OUTPUT ARRAY when the region is left: the dense map of the two input arrays as the region found them. -/
theorem dense2 (c : Dev nD) :
    (dat2 (F := Ideal) V c).arrAt 2 cfg2.N = matProd (V c main_v45) (V c main_arg4) :=
  (dat2 (F := Ideal) V c).arrAt_eq_of_cover 2 (matProd (V c main_v45) (V c main_arg4)) (fun t _ => flushed2 V c t) cover2

end Cert.KernelIdeal.Layers

end
-- ==== Proof.Region3.lean ====
/-
  The second layer's bias-and-rectifier region: what its output array holds when the region is left.

  As in the first layer: ten row blocks of 10000 rows; at block t the body adds the one-row bias array, repeated
  down the rows, to rows 10000·t … 10000·t + 9999 of the aggregated array, takes the maximum with zero entry by entry,
  and writes the result back as the same rows of the output.  Entry (r, c) of the output is
  max(a(r, c) + b(0, c), 0), and the ten blocks tile the output.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_3 : (![0, 0] : Fin 2 → Nat) = fun _ => 0 :=
  funext fun a => match a with | ⟨0, _⟩ => rfl | ⟨1, _⟩ => rfl

/-- The body's value at entry (p, q) of a block: the block's entry plus the bias row's entry q, against zero. -/
theorem act3_apply (x0 : Vec Ideal S10000x128 .f32) (x1 : Vec Ideal S1x128 .f32) (p : Fin 10000) (q : Fin 128) :
    k3_pay1 (F := Ideal) x0 x1 (ix2 p q)
      = max (x0 (ix2 p q) + x1 (ix2 (0 : Fin 1) q)) (Ideal.ofBits .f32 0x00000000#32) := by
  unfold k3_pay1
  simp only [shapeCast_self]
  show max (x0 (ix2 p q) + broadcastTo S10000x128 x1 broadcasts_S1x128_S10000x128 (ix2 p q)) _ = _
  rw [broadcastTo_apply x1 broadcasts_S1x128_S10000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-- The index maps over the grid: the aggregated and the output windows move together down the rows, block t at
    row block t; nothing moves along the columns, and the bias window stays put. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What block t writes back is block t of the bias-and-rectifier map of the arrays as the region finds them. -/
theorem flushed3 (c : Dev nD) (t : Fin cfg3.N) :
    (dat3 (F := Ideal) V c).flushed 2 t
      = ((cfg3.win 2).blk t).view.read (Elt Ideal) (biasRelu (V c main_v59) (V c main_v60)) := by
  show (cfg3.win 2).cut (grid3.coords t) ((dat3 (F := Ideal) V c).after 2 t) = _
  rw [after3_2]
  unfold out3_2
  rw [View.canon_unit_zero origin2_3]
  simp only [View.ld_unit_zero (S := S10000x128) origin2_3, View.ld_unit_zero (S := S1x128) origin2_3]
  obtain ⟨e0, e1, e2, e3, e4, e5⟩ := blocks3 t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (ix2 p q)
    = biasRelu (V c main_v59) (V c main_v60) (((cfg3.win 2).blk t).view.emb (ix2 p q))
  refine (act3_apply _ _ p q).trans ?_
  have hout : ((cfg3.win 2).blk t).view.emb (ix2 p q) = ix2 (⟨t.val * 10000 + p.val, by have := t.isLt; have := p.isLt; have hN : cfg3.N = 10 := N_3; omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  rw [hout, biasRelu_apply]
  have hl : iblk3 V c 0 t (ix2 p q) = V c main_v59 (ix2 (⟨t.val * 10000 + p.val, by have := t.isLt; have := p.isLt; have hN : cfg3.N = 10 := N_3; omega⟩ : Fin 100000) q) := by
    show V c main_v59 (((cfg3.win 0).blk t).view.emb (ix2 p q)) = _
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have hr : iblk3 V c 1 t (ix2 (0 : Fin 1) q) = V c main_v60 (ix2 (0 : Fin 1) q) := by
    show V c main_v60 (((cfg3.win 1).blk t).view.emb (ix2 (0 : Fin 1) q)) = _
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [hl, hr]

/-- An index of the output array lies in block t iff each coordinate lies in the block's range on its axis. -/
theorem mem_block3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- The ten blocks tile the output: row r lies in block r / 10000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by omega⟩
  obtain ⟨-, -, -, -, e4, e5⟩ := blocks3 t
  have ht : t.val = (i 0).val / 10000 := rfl
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE OUTPUT ARRAY when the region is left: bias and rectifier of the two input arrays as the region found them. -/
theorem act3 (c : Dev nD) :
    (dat3 (F := Ideal) V c).arrAt 2 cfg3.N = biasRelu (V c main_v59) (V c main_v60) :=
  (dat3 (F := Ideal) V c).arrAt_eq_of_cover 2 (biasRelu (V c main_v59) (V c main_v60)) (fun t _ => flushed3 V c t) cover3

end Cert.KernelIdeal.Layers

end
-- ==== Proof.Region4.lean ====
/-
  The third dense layer's kernel region: what its output array holds when the region is left.

  The region walks ten row blocks of 10000 rows; at block t the body multiplies rows 10000·t … 10000·t + 9999 of
  the left array, 128 columns wide (passed through a reshaping to its own shape and a narrowing of the float format,
  both the identity here), by the whole right array of 128 rows and 64 columns, into a zero accumulator, and writes the
  product back as the same rows of the 64-column output.  Entry (r, c) of the output is the sum over k of
  x(r, k) · w(k, c), and the ten blocks tile the output.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_4 : (![0, 0] : Fin 2 → Nat) = fun _ => 0 :=
  funext fun a => match a with | ⟨0, _⟩ => rfl | ⟨1, _⟩ => rfl

/-- The body's product at entry (p, q) of a block: the sum over k of the left block's (p, k) times the right
    block's (k, q); the left block's reshaping to its own shape changes nothing. -/
theorem prod4_apply (x0 : Vec Ideal S10000x128 .f32) (x1 : Vec Ideal S128x64 .f32) (p : Fin 10000) (q : Fin 64) :
    k4_pay1 (F := Ideal) x0 x1 (ix2 p q) = ∑ k : Fin 128, x0 (ix2 p k) * x1 (ix2 k q) := by
  unfold k4_pay1
  simp only [shapeCast_self]
  refine (Ideal.matmul_constant_zero_apply dot_S10000x128_S128x64_S10000x64_1_0_0_1_n_n none _ _ (ix2 p q)).trans ?_
  exact PlainDot.sum_eq (M := EReal) dot_S10000x128_S128x64_S10000x64_1_0_0_1_n_n rfl rfl rfl rfl rfl rfl _ _ p q

/-- The index maps over the grid: the left and the output windows move together down the rows, block t at row
    block t; nothing moves along the columns, and the right window stays put. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What block t writes back is block t of the dense map of the arrays as the region finds them. -/
theorem flushed4 (c : Dev nD) (t : Fin cfg4.N) :
    (dat4 (F := Ideal) V c).flushed 2 t
      = ((cfg4.win 2).blk t).view.read (Elt Ideal) (matProd (V c main_v61) (V c main_arg6)) := by
  show (cfg4.win 2).cut (grid4.coords t) ((dat4 (F := Ideal) V c).after 2 t) = _
  rw [after4_2]
  unfold out4_2
  rw [View.canon_unit_zero origin2_4]
  simp only [View.ld_unit_zero (S := S10000x128) origin2_4, View.ld_unit_zero (S := S128x64) origin2_4]
  obtain ⟨e0, e1, e2, e3, e4, e5⟩ := blocks4 t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = matProd (V c main_v61) (V c main_arg6) (((cfg4.win 2).blk t).view.emb (ix2 p q))
  refine (prod4_apply _ _ p q).trans ?_
  have hout : ((cfg4.win 2).blk t).view.emb (ix2 p q) = ix2 (⟨t.val * 10000 + p.val, by have := t.isLt; have := p.isLt; have hN : cfg4.N = 10 := N_4; omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  rw [hout, matProd_apply]
  refine Finset.sum_congr rfl fun k _ => ?_
  have hl : iblk4 V c 0 t (ix2 p k) = V c main_v61 (ix2 (⟨t.val * 10000 + p.val, by have := t.isLt; have := p.isLt; have hN : cfg4.N = 10 := N_4; omega⟩ : Fin 100000) k) := by
    show V c main_v61 (((cfg4.win 0).blk t).view.emb (ix2 p k)) = _
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 128 + 1 * k.val = k.val; omega
  have hr : iblk4 V c 1 t (ix2 k q) = V c main_arg6 (ix2 k q) := by
    show V c main_arg6 (((cfg4.win 1).blk t).view.emb (ix2 k q)) = _
    refine congrArg _ ?_
    funext a; apply Fin.ext
    match a with
    | ⟨0, _⟩ => show win4_1.index t (0 : Fin 2) * 128 + 1 * k.val = k.val; omega
    | ⟨1, _⟩ => show win4_1.index t (1 : Fin 2) * 64 + 1 * q.val = q.val; omega
  rw [hl, hr]

/-- An index of the output array lies in block t iff each coordinate lies in the block's range on its axis. -/
theorem mem_block4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- The ten blocks tile the output: row r lies in block r / 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by omega⟩
  obtain ⟨-, -, -, -, e4, e5⟩ := blocks4 t
  have ht : t.val = (i 0).val / 10000 := rfl
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE OUTPUT ARRAY when the region is left: the dense map of the two input arrays as the region found them. -/
theorem dense4 (c : Dev nD) :
    (dat4 (F := Ideal) V c).arrAt 2 cfg4.N = matProd (V c main_v61) (V c main_arg6) :=
  (dat4 (F := Ideal) V c).arrAt_eq_of_cover 2 (matProd (V c main_v61) (V c main_arg6)) (fun t _ => flushed4 V c t) cover4

end Cert.KernelIdeal.Layers

end
-- ==== Proof.Region5.lean ====
/-
  The last layer's bias region: what its output array holds when the region is left.

  Ten row blocks of 10000 rows, 64 columns wide; at block t the body adds the one-row bias array, repeated down the
  rows, to rows 10000·t … 10000·t + 9999 of the aggregated array and writes the sums back as the same rows of the
  output; there is no rectifier after the last layer.  Entry (r, c) of the output is a(r, c) + b(0, c), and the ten
  blocks tile the output.
-/
import proofs.«112132_j51943334477917_1_alg».proof.Proof.Gen.KernelIdeal.Frame
import proofs.«112132_j51943334477917_1_alg».proof.Proof.LayerSpec
import proofs.«112132_j51943334477917_1_alg».proof.Proof.LibPlainDot
import Idealize.ShloMosaic.PureOps.Ideal.Laws
import Idealize.ShloMosaic.Lib.Pipeline.Value
import Idealize.ShloMosaic.Lib.ValueIdx

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem origin2_5 : (![0, 0] : Fin 2 → Nat) = fun _ => 0 :=
  funext fun a => match a with | ⟨0, _⟩ => rfl | ⟨1, _⟩ => rfl

/-- The body's value at entry (p, q) of a block: the block's entry plus the bias row's entry q. -/
theorem sum5_apply (x0 : Vec Ideal S10000x64 .f32) (x1 : Vec Ideal S1x64 .f32) (p : Fin 10000) (q : Fin 64) :
    k5_pay1 (F := Ideal) x0 x1 (ix2 p q) = x0 (ix2 p q) + x1 (ix2 (0 : Fin 1) q) := by
  unfold k5_pay1
  simp only [shapeCast_self]
  show x0 (ix2 p q) + broadcastTo S10000x64 x1 broadcasts_S1x64_S10000x64 (ix2 p q) = _
  rw [broadcastTo_apply x1 broadcasts_S1x64_S10000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]

/-- The index maps over the grid: the aggregated and the output windows move together down the rows, block t at
    row block t; nothing moves along the columns, and the bias window stays put. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What block t writes back is block t of the bias map of the arrays as the region finds them. -/
theorem flushed5 (c : Dev nD) (t : Fin cfg5.N) :
    (dat5 (F := Ideal) V c).flushed 2 t
      = ((cfg5.win 2).blk t).view.read (Elt Ideal) (biasAdd (V c main_v75) (V c main_v76)) := by
  show (cfg5.win 2).cut (grid5.coords t) ((dat5 (F := Ideal) V c).after 2 t) = _
  rw [after5_2]
  unfold out5_2
  rw [View.canon_unit_zero origin2_5]
  simp only [View.ld_unit_zero (S := S10000x64) origin2_5, View.ld_unit_zero (S := S1x64) origin2_5]
  obtain ⟨e0, e1, e2, e3, e4, e5⟩ := blocks5 t
  funext j
  obtain ⟨p, q, rfl⟩ : ∃ (p : Fin 10000) (q : Fin 64), j = ix2 p q := ⟨j 0, j 1, eq_ix2 j⟩
  show k5_pay1 (F := Ideal) (iblk5 V c 0 t) (iblk5 V c 1 t) (ix2 p q)
    = biasAdd (V c main_v75) (V c main_v76) (((cfg5.win 2).blk t).view.emb (ix2 p q))
  refine (sum5_apply _ _ p q).trans ?_
  have hout : ((cfg5.win 2).blk t).view.emb (ix2 p q) = ix2 (⟨t.val * 10000 + p.val, by have := t.isLt; have := p.isLt; have hN : cfg5.N = 10 := N_5; omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  rw [hout, biasAdd_apply]
  have hl : iblk5 V c 0 t (ix2 p q) = V c main_v75 (ix2 (⟨t.val * 10000 + p.val, by have := t.isLt; have := p.isLt; have hN : cfg5.N = 10 := N_5; omega⟩ : Fin 100000) q) := by
    show V c main_v75 (((cfg5.win 0).blk t).view.emb (ix2 p q)) = _
    refine congrArg _ ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have hr : iblk5 V c 1 t (ix2 (0 : Fin 1) q) = V c main_v76 (ix2 (0 : Fin 1) q) := by
    show V c main_v76 (((cfg5.win 1).blk t).view.emb (ix2 (0 : Fin 1) q)) = _
    refine congrArg _ ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega
  rw [hl, hr]

/-- An index of the output array lies in block t iff each coordinate lies in the block's range on its axis. -/
theorem mem_block5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- The ten blocks tile the output: row r lies in block r / 10000. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by omega⟩
  obtain ⟨-, -, -, -, e4, e5⟩ := blocks5 t
  have ht : t.val = (i 0).val / 10000 := rfl
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE OUTPUT ARRAY when the region is left: the bias map of the two input arrays as the region found them. -/
theorem sum5 (c : Dev nD) :
    (dat5 (F := Ideal) V c).arrAt 2 cfg5.N = biasAdd (V c main_v75) (V c main_v76) :=
  (dat5 (F := Ideal) V c).arrAt_eq_of_cover 2 (biasAdd (V c main_v75) (V c main_v76)) (fun t _ => flushed5 V c t) cover5

end Cert.KernelIdeal.Layers

end
-- ==== Proof.RefLayers.lean ====
/-
  The reference program read layer by layer.

  The reference computes, from the edge list alone: the source and target node of every edge (the given edges followed
  by one self-loop per node), the in-degree of every node, its inverse square root (zero where the degree is not
  positive), and the weight of every edge, the product of the two end nodes' inverse square roots.  Each of its three
  layers then takes a node array h and returns: the dense map h · W; its rows gathered at the edges' sources
  (negative node numbers wrapped round by the node count) and scaled by the edge weights; those rows summed into the
  edges' targets; the bias added; and, in the first two layers, the maximum with zero.

  Here the middle stretch — gather, scale, scatter — is named as ONE function `agg128` / `agg64` of the dense map's
  output, the sources, the targets and the weights, and the same for the edge weights `edgeNorm` from the
  inverse square roots.  The reference's stages are these functions of one another (by unfolding), its dense maps the
  plain contraction sums, and its bias steps the entrywise maps of LayerSpec.  The second and third layer recompute
  the edge weights by the same text as the first: one value.
-/
import proofs.«112132_j51943334477917_1_alg».proof.Proof.RefRead
import proofs.«112132_j51943334477917_1_alg».proof.Proof.LayerSpec
import Idealize.ShloMosaic.Lib.ValueIdx
import Idealize.ShloMosaic.Lib.Pipeline.Value
import Idealize.ShloMosaic.PureOps.Ideal.Laws

noncomputable section

namespace Cert.ReferenceIdeal.Layers

open Idealize.ShloMosaic Idealize.ShloMosaic.ValueIdx
open Cert.ReferenceIdeal Cert.ReferenceIdeal.Gen Cert.ReferenceIdeal.ReadP GcnLayer

section Chains

variable {F : FTy → Type} [FloatOps F]

/-- Node numbers as gather indices: a negative number has the node count added (the index convention of the array
    library), and the vector becomes a one-column array. -/
def wrapIdx (r : (⟨S1700000, .i32⟩ : BufTy).Contents (Elt F)) : (⟨S1700000x1, .i32⟩ : BufTy).Contents (Elt F) :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The edge weights from the nodes' inverse square roots: the source's times the target's. -/
def edgeNorm (dis : (⟨S100000, .f32⟩ : BufTy).Contents (Elt F)) (rows cols : (⟨S1700000, .i32⟩ : BufTy).Contents (Elt F)) :
    (⟨S1700000, .f32⟩ : BufTy).Contents (Elt F) :=
  mulf (Host.gather gather_S100000_S1700000x1_S1700000_n_0_n_n_0_1_1 dis (wrapIdx rows))
    (Host.gather gather_S100000_S1700000x1_S1700000_n_0_n_n_0_1_1 dis (wrapIdx cols))

/-- Gather the rows of `h` at the edges' sources, scale each by its edge's weight, sum them into the edges' targets:
    128 columns. -/
def agg128 (h : (⟨S100000x128, .f32⟩ : BufTy).Contents (Elt F)) (rows cols : (⟨S1700000, .i32⟩ : BufTy).Contents (Elt F))
    (norm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 cols)
    (mulf (Host.gather gather_S100000x128_S1700000x1_S1700000x128_1_0_n_n_0_1_1128 h (wrapIdx rows))
      (broadcastInDim S1700000x128 ![0, 1] bcast_S1700000x1_S1700000x128_0_1
        (broadcastInDim S1700000x1 ![0] bcast_S1700000_S1700000x1_0 norm)))

/-- The same with 64 columns. -/
def agg64 (h : (⟨S100000x64, .f32⟩ : BufTy).Contents (Elt F)) (rows cols : (⟨S1700000, .i32⟩ : BufTy).Contents (Elt F))
    (norm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 cols)
    (mulf (Host.gather gather_S100000x64_S1700000x1_S1700000x64_1_0_n_n_0_1_164 h (wrapIdx rows))
      (broadcastInDim S1700000x64 ![0, 1] bcast_S1700000x1_S1700000x64_0_1
        (broadcastInDim S1700000x1 ![0] bcast_S1700000_S1700000x1_0 norm)))

/-- The first layer's edge weights are `edgeNorm` of the inverse square roots, the sources and the targets. -/
theorem norm1_eq (a1 : (⟨S2x1600000, .i32⟩ : BufTy).Contents (Elt F)) :
    val_main_v30 (F := F) a1 = edgeNorm (val_main_v14 (F := F) a1) (val_main_v3 (F := F) a1) (val_main_v6 (F := F) a1) := rfl

/-- The second layer recomputes the same edge weights. -/
theorem norm2_eq (a1 : (⟨S2x1600000, .i32⟩ : BufTy).Contents (Elt F)) :
    val_main_v63 (F := F) a1 = val_main_v30 (F := F) a1 := rfl

/-- The third layer recomputes the same edge weights. -/
theorem norm3_eq (a1 : (⟨S2x1600000, .i32⟩ : BufTy).Contents (Elt F)) :
    val_main_v96 (F := F) a1 = val_main_v30 (F := F) a1 := rfl

/-- The first layer's aggregation is `agg128` of its dense map. -/
theorem agg1_eq (a0 : (⟨S100000x128, .f32⟩ : BufTy).Contents (Elt F)) (a1 : (⟨S2x1600000, .i32⟩ : BufTy).Contents (Elt F))
    (a2 : (⟨S128x128, .f32⟩ : BufTy).Contents (Elt F)) :
    val_main_v43 (F := F) a0 a1 a2
      = agg128 (val_main_v15 (F := F) a0 a2) (val_main_v3 (F := F) a1) (val_main_v6 (F := F) a1) (val_main_v30 (F := F) a1) := rfl

/-- The second layer's aggregation is `agg128` of its dense map, with the recomputed edge weights. -/
theorem agg2_eq (a0 : (⟨S100000x128, .f32⟩ : BufTy).Contents (Elt F)) (a1 : (⟨S2x1600000, .i32⟩ : BufTy).Contents (Elt F))
    (a2 : (⟨S128x128, .f32⟩ : BufTy).Contents (Elt F)) (a3 : (⟨S128, .f32⟩ : BufTy).Contents (Elt F))
    (a4 : (⟨S128x128, .f32⟩ : BufTy).Contents (Elt F)) :
    val_main_v76 (F := F) a0 a1 a2 a3 a4
      = agg128 (val_main_v48 (F := F) a0 a1 a2 a3 a4) (val_main_v3 (F := F) a1) (val_main_v6 (F := F) a1) (val_main_v63 (F := F) a1) := rfl

/-- The third layer's aggregation is `agg64` of its dense map, with the recomputed edge weights. -/
theorem agg3_eq (a0 : (⟨S100000x128, .f32⟩ : BufTy).Contents (Elt F)) (a1 : (⟨S2x1600000, .i32⟩ : BufTy).Contents (Elt F))
    (a2 : (⟨S128x128, .f32⟩ : BufTy).Contents (Elt F)) (a3 : (⟨S128, .f32⟩ : BufTy).Contents (Elt F))
    (a4 : (⟨S128x128, .f32⟩ : BufTy).Contents (Elt F)) (a5 : (⟨S128, .f32⟩ : BufTy).Contents (Elt F))
    (a6 : (⟨S128x64, .f32⟩ : BufTy).Contents (Elt F)) :
    val_main_v109 (F := F) a0 a1 a2 a3 a4 a5 a6
      = agg64 (val_main_v81 (F := F) a0 a1 a2 a3 a4 a5 a6) (val_main_v3 (F := F) a1) (val_main_v6 (F := F) a1) (val_main_v96 (F := F) a1) := rfl

end Chains

/-! ## The dense maps and the bias steps, index by index, on the extended reals -/

/-- A dense map of the reference with 128 output columns is the plain contraction sum. -/
theorem dense128_eq (x : (⟨S100000x128, .f32⟩ : BufTy).Contents (Elt Ideal)) (w : (⟨S128x128, .f32⟩ : BufTy).Contents (Elt Ideal)) :
    val_main_v15 (F := Ideal) x w = matProd x w := by
  funext i
  obtain ⟨r, c, rfl⟩ : ∃ (r : Fin 100000) (c : Fin 128), i = ix2 r c := ⟨i 0, i 1, eq_ix2 i⟩
  rw [val_main_v15_apply, matProd_apply]
  refine Finset.sum_congr rfl fun k _ => ?_
  have el : lidx_main_v15 (ix2 r c) k = ix2 r k := funext fun a => match a with | ⟨0, _⟩ => rfl | ⟨1, _⟩ => rfl
  have er : ridx_main_v15 (ix2 r c) k = ix2 k c := funext fun a => match a with | ⟨0, _⟩ => rfl | ⟨1, _⟩ => rfl
  rw [el, er]

/-- The second layer's dense map is the plain contraction sum of the first layer's output. -/
theorem dense2_eq (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) :
    val_main_v48 (F := Ideal) a0 a1 a2 a3 a4 = matProd (val_main_v47 (F := Ideal) a0 a1 a2 a3) a4 :=
  dense128_eq (val_main_v47 (F := Ideal) a0 a1 a2 a3) a4

/-- The third layer's dense map, 64 output columns, is the plain contraction sum of the second layer's output. -/
theorem dense3_eq (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 : (⟨S128x64, .f32⟩ : BufTy).Contents (Elt Ideal)) :
    val_main_v81 (F := Ideal) a0 a1 a2 a3 a4 a5 a6 = matProd (val_main_v80 (F := Ideal) a0 a1 a2 a3 a4 a5) a6 := by
  funext i
  obtain ⟨r, c, rfl⟩ : ∃ (r : Fin 100000) (c : Fin 64), i = ix2 r c := ⟨i 0, i 1, eq_ix2 i⟩
  rw [val_main_v81_apply, matProd_apply]
  refine Finset.sum_congr rfl fun k _ => ?_
  have el : lidx_main_v81 (ix2 r c) k = ix2 r k := funext fun a => match a with | ⟨0, _⟩ => rfl | ⟨1, _⟩ => rfl
  have er : ridx_main_v81 (ix2 r c) k = ix2 k c := funext fun a => match a with | ⟨0, _⟩ => rfl | ⟨1, _⟩ => rfl
  rw [el, er]

/-- The first layer's output: bias and rectifier of its aggregation, the bias as a one-row array. -/
theorem act1_eq (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal)) :
    val_main_v47 (F := Ideal) a0 a1 a2 a3 = biasRelu (val_main_v43 (F := Ideal) a0 a1 a2) (val_main_v44 (F := Ideal) a3) := by
  funext i
  obtain ⟨r, c, rfl⟩ : ∃ (r : Fin 100000) (c : Fin 128), i = ix2 r c := ⟨i 0, i 1, eq_ix2 i⟩
  rw [val_main_v47_apply, val_main_v46_apply, val_main_v45_apply, biasRelu_apply]
  have e : idx_main_v45 (ix2 r c) = ix2 (0 : Fin 1) c := funext fun a => match a with | ⟨0, _⟩ => rfl | ⟨1, _⟩ => rfl
  rw [e]
  rfl

/-- The second layer's output: bias and rectifier of its aggregation. -/
theorem act2_eq (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal)) :
    val_main_v80 (F := Ideal) a0 a1 a2 a3 a4 a5
      = biasRelu (val_main_v76 (F := Ideal) a0 a1 a2 a3 a4) (val_main_v77 (F := Ideal) a5) := by
  funext i
  obtain ⟨r, c, rfl⟩ : ∃ (r : Fin 100000) (c : Fin 128), i = ix2 r c := ⟨i 0, i 1, eq_ix2 i⟩
  rw [val_main_v80_apply, val_main_v79_apply, val_main_v78_apply, biasRelu_apply]
  have e : idx_main_v78 (ix2 r c) = ix2 (0 : Fin 1) c := funext fun a => match a with | ⟨0, _⟩ => rfl | ⟨1, _⟩ => rfl
  rw [e]
  rfl

/-- The result: the bias added to the third layer's aggregation. -/
theorem out_eq (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 : (⟨S128x64, .f32⟩ : BufTy).Contents (Elt Ideal)) (a7 : (⟨S64, .f32⟩ : BufTy).Contents (Elt Ideal)) :
    val_main_v112 (F := Ideal) a0 a1 a2 a3 a4 a5 a6 a7
      = biasAdd (val_main_v109 (F := Ideal) a0 a1 a2 a3 a4 a5 a6) (val_main_v110 (F := Ideal) a7) := by
  funext i
  obtain ⟨r, c, rfl⟩ : ∃ (r : Fin 100000) (c : Fin 64), i = ix2 r c := ⟨i 0, i 1, eq_ix2 i⟩
  rw [val_main_v112_apply, val_main_v111_apply, biasAdd_apply]
  have e : idx_main_v111 (ix2 r c) = ix2 (0 : Fin 1) c := funext fun a => match a with | ⟨0, _⟩ => rfl | ⟨1, _⟩ => rfl
  rw [e]
  rfl

/-- A bias vector as a one-row array: entry (0, c) is the vector's entry c, whether the row is made by repeating the
    vector along a new leading axis or by reshaping it. -/
theorem biasRow128_eq (b : (⟨S128, .f32⟩ : BufTy).Contents (Elt Ideal)) (h : S128.ShapeCasts S1x128) :
    val_main_v44 (F := Ideal) b = shapeCast S1x128 b h := by
  funext i
  obtain ⟨z, c, rfl⟩ : ∃ (z : Fin 1) (c : Fin 128), i = ix2 z c := ⟨i 0, i 1, eq_ix2 i⟩
  rw [val_main_v44_apply]
  refine (shapeCast_apply b h (ix2 z c) (idx_main_v44 (ix2 z c)) ?_).symm
  rw [Shape.rowMajor_val_one, Shape.rowMajor_val_two]
  show c.val = z.val * 128 + c.val
  have := z.isLt; omega

theorem biasRow128'_eq (b : (⟨S128, .f32⟩ : BufTy).Contents (Elt Ideal)) (h : S128.ShapeCasts S1x128) :
    val_main_v77 (F := Ideal) b = shapeCast S1x128 b h := biasRow128_eq b h

theorem biasRow64_eq (b : (⟨S64, .f32⟩ : BufTy).Contents (Elt Ideal)) (h : S64.ShapeCasts S1x64) :
    val_main_v110 (F := Ideal) b = shapeCast S1x64 b h := by
  funext i
  obtain ⟨z, c, rfl⟩ : ∃ (z : Fin 1) (c : Fin 64), i = ix2 z c := ⟨i 0, i 1, eq_ix2 i⟩
  rw [val_main_v110_apply]
  refine (shapeCast_apply b h (ix2 z c) (idx_main_v110 (ix2 z c)) ?_).symm
  rw [Shape.rowMajor_val_one, Shape.rowMajor_val_two]
  show c.val = z.val * 64 + c.val
  have := z.isLt; omega

end Cert.ReferenceIdeal.Layers

end
-- ==== Proof.KernelChain.lean ====
/-
  The kernel program's result, boundary by boundary.

  The program is twelve segments: three stretches of host operations (the edges' sources and targets, the nodes'
  inverse square roots, the edge weights), then for each of the three layers a dense-map region, a host stretch
  (gather at the sources, scale by the edge weights, sum into the targets; the bias reshaped to one row) and a
  bias region.  The contents of the buffers at each boundary are a fold from the launch memory; here each buffer a
  later segment reads is followed through that fold and named as the reference program's stage of the launch
  arguments:

    the sources, the targets and the edge weights, computed once before the first region, are the reference's
    (which recomputes the same weights in every layer);
    a dense-map region leaves the plain contraction sum, which is the reference's dense map of the same stage;
    a host stretch between regions is the reference's aggregation of that dense map;
    a bias region leaves the bias (and rectifier) map of the aggregation, the reference's next stage.

  The last region's output is then the reference's result stage of the eight arguments.
-/
import proofs.«112132_j51943334477917_1_alg».proof.Proof.Gen.KernelIdeal.Frame
import proofs.«112132_j51943334477917_1_alg».proof.Proof.LayerSpec
import proofs.«112132_j51943334477917_1_alg».proof.Proof.Region0
import proofs.«112132_j51943334477917_1_alg».proof.Proof.Region1
import proofs.«112132_j51943334477917_1_alg».proof.Proof.Region2
import proofs.«112132_j51943334477917_1_alg».proof.Proof.Region3
import proofs.«112132_j51943334477917_1_alg».proof.Proof.Region4
import proofs.«112132_j51943334477917_1_alg».proof.Proof.Region5
import proofs.«112132_j51943334477917_1_alg».proof.Proof.RefLayers
import Idealize.ShloMosaic.Lib.StableHlo.Run

set_option maxRecDepth 16384

noncomputable section

namespace Cert.KernelIdeal.Layers

open Idealize.ShloMosaic Idealize.ShloMosaic.TcCoe Idealize.ShloMosaic.ValueIdx Idealize.ShloMosaic.StableHlo
open Idealize.SL Idealize.SL.Sem
open Cert.KernelIdeal Cert.KernelIdeal.Gen GcnLayer

/-! ## The host stretches, at any float family -/

section Host

variable {F : FTy → Type} [FloatOps F]
variable (m : (ℓ : Loc nD τ sig) → Buf (Elt F) ℓ) (ρ : Dev nD → PrngReg) (c : Dev nD)

/-! ### Before the first region: sources, targets, inverse square roots, edge weights -/

theorem rows_at1 : W1 m ρ c (Proc.devRef .tc main_v3)
    = Cert.ReferenceIdeal.ReadP.val_main_v3 (F := F) (m ((c : Thread nD τ).loc main_arg1)) := by
  show StableHlo.after hostOps0 (W0 m ρ c) _ = _
  unfold hostOps0; after_results_simp; rfl

theorem cols_at1 : W1 m ρ c (Proc.devRef .tc main_v6)
    = Cert.ReferenceIdeal.ReadP.val_main_v6 (F := F) (m ((c : Thread nD τ).loc main_arg1)) := by
  show StableHlo.after hostOps0 (W0 m ρ c) _ = _
  unfold hostOps0; after_results_simp; rfl

theorem pos_at1 : W1 m ρ c (Proc.devRef .tc main_v12)
    = Cert.ReferenceIdeal.ReadP.val_main_v12 (F := F) (m ((c : Thread nD τ).loc main_arg1)) := by
  show StableHlo.after hostOps0 (W0 m ρ c) _ = _
  unfold hostOps0; after_results_simp; rfl

theorem rsqrt_at1 : W1 m ρ c (Proc.devRef .tc main_v13)
    = Cert.ReferenceIdeal.ReadP.val_main_v13 (F := F) (m ((c : Thread nD τ).loc main_arg1)) := by
  show StableHlo.after hostOps0 (W0 m ρ c) _ = _
  unfold hostOps0; after_results_simp; rfl

theorem zero_at1 : W1 m ρ c (Proc.devRef .tc main_cst_2) = Cert.ReferenceIdeal.ReadP.val_main_cst_2 (F := F) := by
  show StableHlo.after hostOps0 (W0 m ρ c) _ = _
  unfold hostOps0; after_results_simp; rfl

theorem dis_at2 : W2 m ρ c (Proc.devRef .tc main_v14)
    = Cert.ReferenceIdeal.ReadP.val_main_v14 (F := F) (m ((c : Thread nD τ).loc main_arg1)) := by
  have h12 := pos_at1 m ρ c
  have h13 := rsqrt_at1 m ρ c
  have h0 := zero_at1 m ρ c
  show StableHlo.after hostOps0_1 (W1 m ρ c) _ = _
  generalize W1 m ρ c = V1 at h12 h13 h0 ⊢
  unfold hostOps0_1; after_results_simp
  rw [h12, h13, h0]
  simp only [TRef.ofBuf, TRef.toBuf, cast_eq]
  rfl

theorem rows_at2 : W2 m ρ c (Proc.devRef .tc main_v3)
    = Cert.ReferenceIdeal.ReadP.val_main_v3 (F := F) (m ((c : Thread nD τ).loc main_arg1)) := by
  have h := rows_at1 m ρ c
  show StableHlo.after hostOps0_1 (W1 m ρ c) _ = _
  generalize W1 m ρ c = V1 at h ⊢
  unfold hostOps0_1; after_results_simp
  exact h

theorem cols_at2 : W2 m ρ c (Proc.devRef .tc main_v6)
    = Cert.ReferenceIdeal.ReadP.val_main_v6 (F := F) (m ((c : Thread nD τ).loc main_arg1)) := by
  have h := cols_at1 m ρ c
  show StableHlo.after hostOps0_1 (W1 m ρ c) _ = _
  generalize W1 m ρ c = V1 at h ⊢
  unfold hostOps0_1; after_results_simp
  exact h

theorem rows_at3 : W3 m ρ c (Proc.devRef .tc main_v3)
    = Cert.ReferenceIdeal.ReadP.val_main_v3 (F := F) (m ((c : Thread nD τ).loc main_arg1)) := by
  have h := rows_at2 m ρ c
  show StableHlo.after hostOps0_2 (W2 m ρ c) _ = _
  generalize W2 m ρ c = V2 at h ⊢
  unfold hostOps0_2; after_results_simp
  exact h

theorem cols_at3 : W3 m ρ c (Proc.devRef .tc main_v6)
    = Cert.ReferenceIdeal.ReadP.val_main_v6 (F := F) (m ((c : Thread nD τ).loc main_arg1)) := by
  have h := cols_at2 m ρ c
  show StableHlo.after hostOps0_2 (W2 m ρ c) _ = _
  generalize W2 m ρ c = V2 at h ⊢
  unfold hostOps0_2; after_results_simp
  exact h

theorem norm_at3 : W3 m ρ c (Proc.devRef .tc main_v29)
    = Cert.ReferenceIdeal.ReadP.val_main_v30 (F := F) (m ((c : Thread nD τ).loc main_arg1)) := by
  have hd := dis_at2 m ρ c
  have hr := rows_at2 m ρ c
  have hc := cols_at2 m ρ c
  show StableHlo.after hostOps0_2 (W2 m ρ c) _ = _
  generalize W2 m ρ c = V2 at hd hr hc ⊢
  unfold hostOps0_2; after_results_simp
  rw [hd, hr, hc, Cert.ReferenceIdeal.Layers.norm1_eq]; rfl

/-- An argument array is not written before the first region. -/
theorem arg0_at3 : W3 m ρ c (Proc.devRef .tc main_arg0) = m ((c : Thread nD τ).loc main_arg0) := by
  show StableHlo.after hostOps0_2 (StableHlo.after hostOps0_1 (StableHlo.after hostOps0 (W0 m ρ c))) _ = _
  unfold hostOps0 hostOps0_1 hostOps0_2; after_results_simp
theorem arg2_at3 : W3 m ρ c (Proc.devRef .tc main_arg2) = m ((c : Thread nD τ).loc main_arg2) := by
  show StableHlo.after hostOps0_2 (StableHlo.after hostOps0_1 (StableHlo.after hostOps0 (W0 m ρ c))) _ = _
  unfold hostOps0 hostOps0_1 hostOps0_2; after_results_simp
theorem arg3_at3 : W3 m ρ c (Proc.devRef .tc main_arg3) = m ((c : Thread nD τ).loc main_arg3) := by
  show StableHlo.after hostOps0_2 (StableHlo.after hostOps0_1 (StableHlo.after hostOps0 (W0 m ρ c))) _ = _
  unfold hostOps0 hostOps0_1 hostOps0_2; after_results_simp
theorem arg4_at3 : W3 m ρ c (Proc.devRef .tc main_arg4) = m ((c : Thread nD τ).loc main_arg4) := by
  show StableHlo.after hostOps0_2 (StableHlo.after hostOps0_1 (StableHlo.after hostOps0 (W0 m ρ c))) _ = _
  unfold hostOps0 hostOps0_1 hostOps0_2; after_results_simp
theorem arg5_at3 : W3 m ρ c (Proc.devRef .tc main_arg5) = m ((c : Thread nD τ).loc main_arg5) := by
  show StableHlo.after hostOps0_2 (StableHlo.after hostOps0_1 (StableHlo.after hostOps0 (W0 m ρ c))) _ = _
  unfold hostOps0 hostOps0_1 hostOps0_2; after_results_simp
theorem arg6_at3 : W3 m ρ c (Proc.devRef .tc main_arg6) = m ((c : Thread nD τ).loc main_arg6) := by
  show StableHlo.after hostOps0_2 (StableHlo.after hostOps0_1 (StableHlo.after hostOps0 (W0 m ρ c))) _ = _
  unfold hostOps0 hostOps0_1 hostOps0_2; after_results_simp
theorem arg7_at3 : W3 m ρ c (Proc.devRef .tc main_arg7) = m ((c : Thread nD τ).loc main_arg7) := by
  show StableHlo.after hostOps0_2 (StableHlo.after hostOps0_1 (StableHlo.after hostOps0 (W0 m ρ c))) _ = _
  unfold hostOps0 hostOps0_1 hostOps0_2; after_results_simp

/-! ### The first layer's host stretch, from the contents the first dense-map region leaves -/

theorem agg_at5 : W5 m ρ c (Proc.devRef .tc main_v43)
    = Cert.ReferenceIdeal.Layers.agg128 (F := F) (W4 m ρ c (Proc.devRef .tc main_v30)) (W4 m ρ c (Proc.devRef .tc main_v3))
        (W4 m ρ c (Proc.devRef .tc main_v6)) (W4 m ρ c (Proc.devRef .tc main_v29)) := by
  show StableHlo.after hostOps1 (W4 m ρ c) _ = _
  unfold hostOps1; after_results_simp; rfl

theorem bias_at5 : W5 m ρ c (Proc.devRef .tc main_v44)
    = shapeCast S1x128 (W4 m ρ c (Proc.devRef .tc main_arg3)) shapeCasts_S128_S1x128 := by
  show StableHlo.after hostOps1 (W4 m ρ c) _ = _
  unfold hostOps1; after_results_simp; rfl

/-- The stretch writes none of these. -/
theorem kept5 (b : Ref sig .tc) (hb : b = main_v3 ∨ b = main_v6 ∨ b = main_v29 ∨ b = main_arg4 ∨ b = main_arg5 ∨ b = main_arg6 ∨ b = main_arg7) :
    W5 m ρ c (Proc.devRef .tc b) = W4 m ρ c (Proc.devRef .tc b) := by
  show StableHlo.after hostOps1 (W4 m ρ c) _ = _
  rcases hb with rfl | rfl | rfl | rfl | rfl | rfl | rfl <;> (unfold hostOps1; after_results_simp)

/-! ### The second layer's host stretch -/

theorem agg_at8 : W8 m ρ c (Proc.devRef .tc main_v59)
    = Cert.ReferenceIdeal.Layers.agg128 (F := F) (W7 m ρ c (Proc.devRef .tc main_v46)) (W7 m ρ c (Proc.devRef .tc main_v3))
        (W7 m ρ c (Proc.devRef .tc main_v6)) (W7 m ρ c (Proc.devRef .tc main_v29)) := by
  show StableHlo.after hostOps3 (W7 m ρ c) _ = _
  unfold hostOps3; after_results_simp; rfl

theorem bias_at8 : W8 m ρ c (Proc.devRef .tc main_v60)
    = shapeCast S1x128 (W7 m ρ c (Proc.devRef .tc main_arg5)) shapeCasts_S128_S1x128 := by
  show StableHlo.after hostOps3 (W7 m ρ c) _ = _
  unfold hostOps3; after_results_simp; rfl

theorem kept8 (b : Ref sig .tc) (hb : b = main_v3 ∨ b = main_v6 ∨ b = main_v29 ∨ b = main_arg6 ∨ b = main_arg7) :
    W8 m ρ c (Proc.devRef .tc b) = W7 m ρ c (Proc.devRef .tc b) := by
  show StableHlo.after hostOps3 (W7 m ρ c) _ = _
  rcases hb with rfl | rfl | rfl | rfl | rfl <;> (unfold hostOps3; after_results_simp)

/-! ### The third layer's host stretch -/

theorem agg_at11 : W11 m ρ c (Proc.devRef .tc main_v75)
    = Cert.ReferenceIdeal.Layers.agg64 (F := F) (W10 m ρ c (Proc.devRef .tc main_v62)) (W10 m ρ c (Proc.devRef .tc main_v3))
        (W10 m ρ c (Proc.devRef .tc main_v6)) (W10 m ρ c (Proc.devRef .tc main_v29)) := by
  show StableHlo.after hostOps5 (W10 m ρ c) _ = _
  unfold hostOps5; after_results_simp; rfl

theorem bias_at11 : W11 m ρ c (Proc.devRef .tc main_v76)
    = shapeCast S1x64 (W10 m ρ c (Proc.devRef .tc main_arg7)) shapeCasts_S64_S1x64 := by
  show StableHlo.after hostOps5 (W10 m ρ c) _ = _
  unfold hostOps5; after_results_simp; rfl

/-! ### What no region and no later stretch writes keeps its contents from before the first region -/

/-- Through the first dense-map region. -/
theorem kept4 (b : Ref sig .tc) (hb : b = main_v3 ∨ b = main_v6 ∨ b = main_v29 ∨ b = main_arg3 ∨ b = main_arg4 ∨ b = main_arg5 ∨ b = main_arg6 ∨ b = main_arg7) :
    W4 m ρ c (Proc.devRef .tc b) = W3 m ρ c (Proc.devRef .tc b) := by
  rcases hb with rfl | rfl | rfl | rfl | rfl | rfl | rfl | rfl <;> exact W4_of_ne m ρ c _ (by decide)

/-- Through the first layer: region, stretch, region. -/
theorem kept6 (b : Ref sig .tc) (hb : b = main_v3 ∨ b = main_v6 ∨ b = main_v29 ∨ b = main_arg4 ∨ b = main_arg5 ∨ b = main_arg6 ∨ b = main_arg7) :
    W6 m ρ c (Proc.devRef .tc b) = W3 m ρ c (Proc.devRef .tc b) := by
  have h4 := kept4 m ρ c b (by rcases hb with h | h | h | h | h | h | h <;> simp [h])
  have h5 := kept5 m ρ c b hb
  have h6 : W6 m ρ c (Proc.devRef .tc b) = W5 m ρ c (Proc.devRef .tc b) := by
    rcases hb with rfl | rfl | rfl | rfl | rfl | rfl | rfl <;> exact W6_of_ne m ρ c _ (by decide)
  exact h6.trans (h5.trans h4)

/-- And through the second dense-map region. -/
theorem kept7 (b : Ref sig .tc) (hb : b = main_v3 ∨ b = main_v6 ∨ b = main_v29 ∨ b = main_arg5 ∨ b = main_arg6 ∨ b = main_arg7) :
    W7 m ρ c (Proc.devRef .tc b) = W3 m ρ c (Proc.devRef .tc b) := by
  have h6 := kept6 m ρ c b (by rcases hb with h | h | h | h | h | h <;> simp [h])
  have h7 : W7 m ρ c (Proc.devRef .tc b) = W6 m ρ c (Proc.devRef .tc b) := by
    rcases hb with rfl | rfl | rfl | rfl | rfl | rfl <;> exact W7_of_ne m ρ c _ (by decide)
  exact h7.trans h6

/-- Through the second layer's stretch and bias region. -/
theorem kept9 (b : Ref sig .tc) (hb : b = main_v3 ∨ b = main_v6 ∨ b = main_v29 ∨ b = main_arg6 ∨ b = main_arg7) :
    W9 m ρ c (Proc.devRef .tc b) = W3 m ρ c (Proc.devRef .tc b) := by
  have h7 := kept7 m ρ c b (by rcases hb with h | h | h | h | h <;> simp [h])
  have h8 := kept8 m ρ c b hb
  have h9 : W9 m ρ c (Proc.devRef .tc b) = W8 m ρ c (Proc.devRef .tc b) := by
    rcases hb with rfl | rfl | rfl | rfl | rfl <;> exact W9_of_ne m ρ c _ (by decide)
  exact h9.trans (h8.trans h7)

/-- And through the third dense-map region. -/
theorem kept10 (b : Ref sig .tc) (hb : b = main_v3 ∨ b = main_v6 ∨ b = main_v29 ∨ b = main_arg7) :
    W10 m ρ c (Proc.devRef .tc b) = W3 m ρ c (Proc.devRef .tc b) := by
  have h9 := kept9 m ρ c b (by rcases hb with h | h | h | h <;> simp [h])
  have h10 : W10 m ρ c (Proc.devRef .tc b) = W9 m ρ c (Proc.devRef .tc b) := by
    rcases hb with rfl | rfl | rfl | rfl <;> exact W10_of_ne m ρ c _ (by decide)
  exact h10.trans h9

end Host

/-! ## The chain on the extended reals -/

section Chain

variable (m : (ℓ : Loc nD τ sig) → Buf (Elt Ideal) ℓ) (ρ : Dev nD → PrngReg) (c : Dev nD)

open Cert.ReferenceIdeal.ReadP in
/-- After the first dense-map region: the reference's first dense map. -/
theorem dense_at4 : W4 m ρ c (Proc.devRef .tc main_v30)
    = val_main_v15 (F := Ideal) (m ((c : Thread nD τ).loc main_arg0)) (m ((c : Thread nD τ).loc main_arg2)) := by
  refine (W4_arr m ρ c 2).trans ((dense0 (V3 m ρ) c).trans ?_)
  show matProd (W3 m ρ c (Proc.devRef .tc main_arg0)) (W3 m ρ c (Proc.devRef .tc main_arg2)) = _
  rw [arg0_at3, arg2_at3, Cert.ReferenceIdeal.Layers.dense128_eq]

open Cert.ReferenceIdeal.ReadP in
/-- After the first layer's host stretch: the reference's first aggregation. -/
theorem agg1_at5 : W5 m ρ c (Proc.devRef .tc main_v43)
    = val_main_v43 (F := Ideal) (m ((c : Thread nD τ).loc main_arg0)) (m ((c : Thread nD τ).loc main_arg1)) (m ((c : Thread nD τ).loc main_arg2)) := by
  rw [agg_at5, dense_at4, kept4 m ρ c main_v3 (by simp), kept4 m ρ c main_v6 (by simp), kept4 m ρ c main_v29 (by simp),
    rows_at3, cols_at3, norm_at3, Cert.ReferenceIdeal.Layers.agg1_eq]

open Cert.ReferenceIdeal.ReadP in
/-- After the first bias region: the reference's first layer. -/
theorem layer1_at6 : W6 m ρ c (Proc.devRef .tc main_v45)
    = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((act1 (V5 m ρ) c).trans ?_)
  show biasRelu (W5 m ρ c (Proc.devRef .tc main_v43)) (W5 m ρ c (Proc.devRef .tc main_v44)) = _
  rw [agg1_at5, bias_at5, kept4 m ρ c main_arg3 (by simp), arg3_at3, Cert.ReferenceIdeal.Layers.act1_eq,
    Cert.ReferenceIdeal.Layers.biasRow128_eq _ shapeCasts_S128_S1x128]

open Cert.ReferenceIdeal.ReadP in
/-- After the second dense-map region: the reference's second dense map. -/
theorem dense_at7 : W7 m ρ c (Proc.devRef .tc main_v46)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((dense2 (V6 m ρ) c).trans ?_)
  show matProd (W6 m ρ c (Proc.devRef .tc main_v45)) (W6 m ρ c (Proc.devRef .tc main_arg4)) = _
  rw [layer1_at6, kept6 m ρ c main_arg4 (by simp), arg4_at3, Cert.ReferenceIdeal.Layers.dense2_eq]

open Cert.ReferenceIdeal.ReadP in
/-- After the second layer's host stretch: the reference's second aggregation. -/
theorem agg2_at8 : W8 m ρ c (Proc.devRef .tc main_v59)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [agg_at8, dense_at7, kept7 m ρ c main_v3 (by simp), kept7 m ρ c main_v6 (by simp), kept7 m ρ c main_v29 (by simp),
    rows_at3, cols_at3, norm_at3, Cert.ReferenceIdeal.Layers.agg2_eq, Cert.ReferenceIdeal.Layers.norm2_eq]

open Cert.ReferenceIdeal.ReadP in
/-- After the second bias region: the reference's second layer. -/
theorem layer2_at9 : W9 m ρ c (Proc.devRef .tc main_v61)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((act3 (V8 m ρ) c).trans ?_)
  show biasRelu (W8 m ρ c (Proc.devRef .tc main_v59)) (W8 m ρ c (Proc.devRef .tc main_v60)) = _
  rw [agg2_at8, bias_at8, kept7 m ρ c main_arg5 (by simp), arg5_at3, Cert.ReferenceIdeal.Layers.act2_eq,
    Cert.ReferenceIdeal.Layers.biasRow128'_eq _ shapeCasts_S128_S1x128]

open Cert.ReferenceIdeal.ReadP in
/-- After the third dense-map region: the reference's third dense map. -/
theorem dense_at10 : W10 m ρ c (Proc.devRef .tc main_v62)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((dense4 (V9 m ρ) c).trans ?_)
  show matProd (W9 m ρ c (Proc.devRef .tc main_v61)) (W9 m ρ c (Proc.devRef .tc main_arg6)) = _
  rw [layer2_at9, kept9 m ρ c main_arg6 (by simp), arg6_at3, Cert.ReferenceIdeal.Layers.dense3_eq]

open Cert.ReferenceIdeal.ReadP in
/-- After the third layer's host stretch: the reference's third aggregation. -/
theorem agg3_at11 : W11 m ρ c (Proc.devRef .tc main_v75)
    = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [agg_at11, dense_at10, kept10 m ρ c main_v3 (by simp), kept10 m ρ c main_v6 (by simp), kept10 m ρ c main_v29 (by simp),
    rows_at3, cols_at3, norm_at3, Cert.ReferenceIdeal.Layers.agg3_eq, Cert.ReferenceIdeal.Layers.norm3_eq]

open Cert.ReferenceIdeal.ReadP in
/-- THE RESULT: after the last bias region the result buffer holds the reference's result stage of the arguments. -/
theorem result_at12 : W12 m ρ c (Proc.devRef .tc main_v77)
    = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((sum5 (V11 m ρ) c).trans ?_)
  show biasAdd (W11 m ρ c (Proc.devRef .tc main_v75)) (W11 m ρ c (Proc.devRef .tc main_v76)) = _
  rw [agg3_at11, bias_at11, kept10 m ρ c main_arg7 (by simp), arg7_at3, Cert.ReferenceIdeal.Layers.out_eq,
    Cert.ReferenceIdeal.Layers.biasRow64_eq _ shapeCasts_S64_S1x64]

end Chain

end Cert.KernelIdeal.Layers

end
-- ==== Proof.lean ====
/-
  Three graph-convolution layers, the kernel's against the reference's, equal as extended reals.

  Both programs compute, from the edge list, the edges' end nodes (the given edges and one self-loop per node), the
  nodes' in-degrees and their inverse square roots, and the edge weights; then three times: a dense map h · W, the rows
  of its output gathered at the edges' sources, scaled by the edge weights and summed into the edges' targets, and a bias
  (with a rectifier after the first two).  The kernel program runs each dense map and each bias step as a kernel
  region over ten blocks of 10000 rows; the reference runs them as whole-array operations.

  The frames of the two kernel programs are the generated ones; the reference's frame is its run with the result
  dropped.  No operation was rewritten by the idealization, so there is nothing to preserve.  For the value claim the
  kernel program's run is taken with its result buffer read at the last boundary's contents (Proof/KernelRun.lean), those
  contents are followed boundary by boundary to the reference's result stage of the arguments (Proof/KernelChain.lean,
  over the six regions' closed forms Proof/Region0 … Region5), and the reference's run ends at the same stage of the
  arguments it was launched with, which agree with the kernel program's.  No law of arithmetic beyond regrouping is
  used: the blocked dense map and the whole one are the same sum entry by entry, so finiteness of the inputs is never
  opened.
-/
import proofs.«112132_j51943334477917_1_alg».proof.Defs
import proofs.«112132_j51943334477917_1_alg».proof.Proof.Gen.Kernel
import proofs.«112132_j51943334477917_1_alg».proof.Proof.Gen.Kernel.Skeleton
import proofs.«112132_j51943334477917_1_alg».proof.Proof.Gen.Kernel.Launch
import proofs.«112132_j51943334477917_1_alg».proof.Proof.Gen.Kernel.Points
import proofs.«112132_j51943334477917_1_alg».proof.Proof.Gen.Kernel.Frame
import proofs.«112132_j51943334477917_1_alg».proof.Proof.Gen.KernelIdeal
import proofs.«112132_j51943334477917_1_alg».proof.Proof.Gen.KernelIdeal.Skeleton
import proofs.«112132_j51943334477917_1_alg».proof.Proof.Gen.KernelIdeal.Launch
import proofs.«112132_j51943334477917_1_alg».proof.Proof.Gen.KernelIdeal.Points
import proofs.«112132_j51943334477917_1_alg».proof.Proof.Gen.KernelIdeal.Frame
import proofs.«112132_j51943334477917_1_alg».proof.Proof.Gen.ReferenceIdeal
import proofs.«112132_j51943334477917_1_alg».proof.Proof.Gen.Pre_finite_inputs
import proofs.«112132_j51943334477917_1_alg».proof.Proof.RefRun
import proofs.«112132_j51943334477917_1_alg».proof.Proof.RefRead
import proofs.«112132_j51943334477917_1_alg».proof.Proof.KernelRun
import proofs.«112132_j51943334477917_1_alg».proof.Proof.KernelChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the reference's result stage of the launch arguments in their result buffers. -/
theorem algebraic : Cert.algebraic_KernelIdeal_ReferenceIdeal := by
  intro m ρ m' ρ' _ hagree
  refine ⟨fun c => Cert.ReferenceIdeal.ReadP.val_main_v112 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result_at12 m ρ c), (h c).2⟩)
      (Cert.KernelIdeal.GenP.run_out (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v112_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
